-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S5000x128 : Shape := ⟨2, ![5000, 128]⟩
abbrev S1600000x128 : Shape := ⟨2, ![1600000, 128]⟩
abbrev S100000x64 : Shape := ⟨2, ![100000, 64]⟩
abbrev S5000x1 : Shape := ⟨2, ![5000, 1]⟩
abbrev S5000x64 : Shape := ⟨2, ![5000, 64]⟩
abbrev S1600000x64 : Shape := ⟨2, ![1600000, 64]⟩

abbrev nBuf : Space → Nat
  | .hbm => 78
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x1, .f32⟩
  | .hbm, ⟨41, _⟩ => ⟨S1x128, .f32⟩
  | .hbm, ⟨42, _⟩ => ⟨S1x64, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S1600000x1, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000, .f32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S1600000x1, .f32⟩
  | .hbm, ⟨97, _⟩ => ⟨S1600000x64, .f32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S100000, .f32⟩
  | .hbm, ⟨104, _⟩ => ⟨S100000x1, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call1_cst : Ref sig .tc := ⟨.hbm, 111, rfl⟩
abbrev main_call1_v0 : Ref sig .tc := ⟨.hbm, 112, rfl⟩
abbrev main_v86 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  A two-layer graph convolution, as three whole-array functions over the extended reals.

  With `h = x · W` the dense part of a layer, `agg` the neighbours' sum (a row scatter-add of gathered, scaled rows of
  `h`), `d2` the column of self-loop weights (one per node) and `b` the bias row, a layer's activation at node `n`,
  feature `f` is

      max ((agg n f + h n f · d2 n) + b f) 0 .

  The program computes the first dense product by itself (`dense128`), then fuses the first activation with the
  second dense product (`layer1`: the activation row times the second weight matrix), then the second activation
  (`act64`). Each is stated here index by index; the zero the activation compares with is kept as the float word it is
  printed as, never evaluated.
-/
import Idealize.ShloMosaic.PureOps.Ideal
import Idealize.ShloMosaic.Lib.ValueIdx

noncomputable section

open scoped BigOperators

namespace Cert.Gcn

open Idealize.ShloMosaic Idealize.ShloMosaic.ValueIdx

/-- The node (row) of a rank-2 index. -/
abbrev node128 (i : (⟨2, ![100000, 128]⟩ : Shape).Idx) : Fin 100000 := ⟨(i 0).val, (i 0).isLt⟩
/-- The feature (column) of a rank-2 index. -/
abbrev feat128 (i : (⟨2, ![100000, 128]⟩ : Shape).Idx) : Fin 128 := ⟨(i 1).val, (i 1).isLt⟩
abbrev node64 (i : (⟨2, ![100000, 64]⟩ : Shape).Idx) : Fin 100000 := ⟨(i 0).val, (i 0).isLt⟩
abbrev feat64 (i : (⟨2, ![100000, 64]⟩ : Shape).Idx) : Fin 64 := ⟨(i 1).val, (i 1).isLt⟩

/-- The zero an activation is clamped at: the float word `0x00000000` read at the ideal instance. -/
abbrev zeroWord : EReal := Ideal.ofBits .f32 0x00000000#32

/-- `x · W` with 128 input and 128 output features: entry (n, f) is the sum over k of `x n k · W k f`. -/
def dense128 (x : FVec Ideal ⟨2, ![100000, 128]⟩ .f32) (w : FVec Ideal ⟨2, ![128, 128]⟩ .f32) :
    FVec Ideal ⟨2, ![100000, 128]⟩ .f32 :=
  fun i => ∑ k : Fin 128, x (ix2 (node128 i) k) * w (ix2 k (feat128 i))

/-- The first layer's activation: neighbours' sum plus the self loop plus the bias, clamped at zero. -/
def act128 (agg h : FVec Ideal ⟨2, ![100000, 128]⟩ .f32) (d2 : FVec Ideal ⟨2, ![100000, 1]⟩ .f32)
    (b : FVec Ideal ⟨2, ![1, 128]⟩ .f32) : FVec Ideal ⟨2, ![100000, 128]⟩ .f32 :=
  fun i => max ((agg i + h i * d2 (ix2 (node128 i) (0 : Fin 1))) + b (ix2 (0 : Fin 1) (feat128 i))) zeroWord

/-- The first activation times the second weight matrix (128 input, 64 output features). -/
def layer1 (agg h : FVec Ideal ⟨2, ![100000, 128]⟩ .f32) (d2 : FVec Ideal ⟨2, ![100000, 1]⟩ .f32)
    (b : FVec Ideal ⟨2, ![1, 128]⟩ .f32) (w : FVec Ideal ⟨2, ![128, 64]⟩ .f32) : FVec Ideal ⟨2, ![100000, 64]⟩ .f32 :=
  fun i => ∑ k : Fin 128, act128 agg h d2 b (ix2 (node64 i) k) * w (ix2 k (feat64 i))

/-- The second layer's activation, on 64 features. -/
def act64 (agg h : FVec Ideal ⟨2, ![100000, 64]⟩ .f32) (d2 : FVec Ideal ⟨2, ![100000, 1]⟩ .f32)
    (b : FVec Ideal ⟨2, ![1, 64]⟩ .f32) : FVec Ideal ⟨2, ![100000, 64]⟩ .f32 :=
  fun i => max ((agg i + h i * d2 (ix2 (node64 i) (0 : Fin 1))) + b (ix2 (0 : Fin 1) (feat64 i))) zeroWord

end Cert.Gcn

end
-- ==== Proof.Region0.lean ====
/-
  The first kernel region (the first layer's dense product), read as a value.

  Its grid has 20 points; point `t` multiplies rows 5000·t … 5000·t + 4999 of the node features by the whole 128 × 128
  weight matrix (both rounded to a narrower float on the way in, which at the ideal instance changes nothing) into a
  zero accumulator, and writes those rows of the product. Row `p` of the block depends only on row `p` of the feature
  block, so what a point writes back is its block of ONE whole-array function, `Cert.Gcn.dense128` of the two arrays as
  the region finds them; the 20 blocks tile the 100000 rows.
-/
import proofs.«116353_j25185688224516_1_alg».proof.Proof.Gen.KernelIdeal.Frame
import proofs.«116353_j25185688224516_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

/-- The all-zero offset of a whole-buffer access. -/
theorem zero2 : (![0, 0] : Fin 2 → Nat) = fun _ => 0 := funext fun a => by fin_cases a <;> rfl

/-! The product's operand indices, axis by axis: at output index `i` and contraction index `q` the left operand is
    read at (row of `i`, `q`) and the right one at (`q`, column of `i`). -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's arithmetic at one element of its block: entry (p, q) of the product of the feature block by the weight
    matrix is the sum over k of (row p, k) times (k, column q). -/
theorem payload_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

variable (V : (c : Dev nD) → (b : Ref sig .tc) → Buf (Elt Ideal) ((c : Thread nD τ).loc b))

/-- The printed block index maps, decided once over the 20 grid points: the feature block moves with the output
    (block `t` of rows), the weight matrix stays whole. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every block of rows is some point's. -/
theorem idx_onto : ∀ r : Fin 20, ∃ t : Fin cfg0.N, win0_2.index t = ![r.val, 0] :=
  (by decide +kernel : ∀ r : Fin 20, ∃ t : Fin grid0.N, win0_2.index t = ![r.val, 0])

/-- WHAT POINT `t` WRITES BACK is block `t` of the dense product of the two arrays as the region finds them. -/
theorem flushed_eq (c : Dev nD) (t : Fin cfg0.N) :
    (dat0 V c).flushed 2 t = ((cfg0.win 2).blk t).view.read (Elt Ideal)
      (dense128 (V c main_arg0) (V c main_arg2)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x128) zero2]
  obtain ⟨e0, e0', e1, e1', e2'⟩ := idx_facts t
  funext j
  obtain ⟨p, q, rfl⟩ : ∃ (p : Fin 5000) (q : Fin 128), j = ix2 p q := ⟨j 0, j 1, eq_ix2 j⟩
  refine (payload_apply (iblk0 V c 0 t) (iblk0 V c 1 t) p q).trans ?_
  have r0 : ∀ k : Fin 128, iblk0 V c 0 t (ix2 p k)
      = V c main_arg0 (ix2 (node128 (((cfg0.win 2).blk t).view.emb (ix2 p q))) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have r1 : ∀ k : Fin 128, iblk0 V c 1 t (ix2 k q)
      = V c main_arg2 (ix2 k (feat128 (((cfg0.win 2).blk t).view.emb (ix2 p q)))) := fun k => by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  show _ = dense128 (V c main_arg0) (V c main_arg2) (((cfg0.win 2).blk t).view.emb (ix2 p q))
  unfold dense128
  exact Finset.sum_congr rfl fun k _ => by rw [r0 k, r1 k]

/-- An index of the product array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The 20 blocks of 5000 rows cover the 100000 rows: row `r` is in the block of point `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE PRODUCT ARRAY after the region: the dense product of the two arrays as the region finds them. -/
theorem final (c : Dev nD) :
    (dat0 V c).arrAt 2 cfg0.N = dense128 (V c main_arg0) (V c main_arg2) :=
  (dat0 V c).arrAt_eq_of_cover 2 _ (fun t _ => flushed_eq V c t) cover

end Cert.KernelIdeal.Dense1

end
-- ==== Proof.Region1.lean ====
/-
  The second kernel region (the first layer's activation fused with the second layer's dense product), read as a value.

  Its grid has 20 points; point `t` takes rows 5000·t … 5000·t + 4999 of the neighbours' sum, of the first dense
  product and of the column of self-loop weights, the whole bias row and the whole 128 × 64 weight matrix; it forms
  the activation of its 5000 rows, multiplies it by the weight matrix into a zero accumulator (the roundings on the way
  in change nothing at the ideal instance) and writes those rows of the product. Row `p` of the block depends only on
  row `p` of the row-blocked operands, so what a point writes back is its block of ONE whole-array function,
  `Cert.Gcn.layer1` of the operand arrays as the region finds them; the 20 blocks tile the 100000 rows.
-/
import proofs.«116353_j25185688224516_1_alg».proof.Proof.Gen.KernelIdeal.Frame
import proofs.«116353_j25185688224516_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Fused

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

/-- The all-zero offset of a whole-buffer access. -/
theorem zero2 : (![0, 0] : Fin 2 → Nat) = fun _ => 0 := funext fun a => by fin_cases a <;> rfl

/-! The product's operand indices, axis by axis: at output index `i` and contraction index `q` the left operand is
    read at (row of `i`, `q`) and the right one at (`q`, column of `i`). -/

theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's arithmetic at one element of its block: entry (p, q) of the product is the sum over k of the activation
    of (row p, feature k) — neighbours' sum plus dense part times the row's self-loop weight plus the feature's bias,
    clamped at zero — times (k, column q) of the weight matrix. -/
theorem payload_apply (a h : Vec Ideal S5000x128 .f32) (d : Vec Ideal S5000x1 .f32) (b : Vec Ideal S1x128 .f32)
    (w : Vec Ideal S128x64 .f32) (p : Fin 5000) (q : Fin 64) :
    k1_pay1 (F := Ideal) a h d b w (ix2 p q)
      = ∑ k : Fin 128, max ((a (ix2 p k) + h (ix2 p k) * d (ix2 p (0 : Fin 1))) + b (ix2 (0 : Fin 1) k)) zeroWord * w (ix2 k q) := by
  unfold k1_pay1
  simp only [shapeCast_self, matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]
  have hd : broadcastTo S5000x128 d broadcasts_S5000x1_S5000x128 (ix2 p k) = d (ix2 p (0 : Fin 1)) :=
    broadcastTo_apply d _ (ix2 p k) (ix2 p (0 : Fin 1)) (fun a => match a with
      | ⟨0, _⟩ => by show p.val = if (5000 : Nat) = 1 then 0 else p.val; rw [if_neg (by decide)]
      | ⟨1, _⟩ => by show 0 = if (1 : Nat) = 1 then 0 else k.val; rw [if_pos rfl])
  have hb : broadcastTo S5000x128 b broadcasts_S1x128_S5000x128 (ix2 p k) = b (ix2 (0 : Fin 1) k) :=
    broadcastTo_apply b _ (ix2 p k) (ix2 (0 : Fin 1) k) (fun a => match a with
      | ⟨0, _⟩ => by show 0 = if (1 : Nat) = 1 then 0 else p.val; rw [if_pos rfl]
      | ⟨1, _⟩ => by show k.val = if (128 : Nat) = 1 then 0 else k.val; rw [if_neg (by decide)])
  show max ((a (ix2 p k) + h (ix2 p k) * broadcastTo S5000x128 d broadcasts_S5000x1_S5000x128 (ix2 p k))
      + broadcastTo S5000x128 b broadcasts_S1x128_S5000x128 (ix2 p k)) _ * w (ix2 k q) = _
  rw [hd, hb]
  rfl

variable (V : (c : Dev nD) → (b : Ref sig .tc) → Buf (Elt Ideal) ((c : Thread nD τ).loc b))

/-- The printed block index maps, decided once over the 20 grid points: every row-blocked operand moves with the
    output (block `t` of rows), the bias row and the weight matrix stay whole. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every block of rows is some point's. -/
theorem idx_onto : ∀ r : Fin 20, ∃ t : Fin cfg1.N, win1_5.index t = ![r.val, 0] :=
  (by decide +kernel : ∀ r : Fin 20, ∃ t : Fin grid1.N, win1_5.index t = ![r.val, 0])

/-- WHAT POINT `t` WRITES BACK is block `t` of the fused layer of the operand arrays as the region finds them. -/
theorem flushed_eq (c : Dev nD) (t : Fin cfg1.N) :
    (dat1 V c).flushed 5 t = ((cfg1.win 5).blk t).view.read (Elt Ideal)
      (layer1 (V c main_v43) (V c main_v30) (V c main_v27) (V c main_v28) (V c main_arg4)) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S5000x1) zero2,
    View.ld_unit_zero (S := S1x128) zero2, View.ld_unit_zero (S := S128x64) zero2]
  obtain ⟨e0, e0', e1, e1', e2, e2', e3, e3', e4, e4', e5'⟩ := idx_facts t
  funext j
  obtain ⟨p, q, rfl⟩ : ∃ (p : Fin 5000) (q : Fin 64), j = ix2 p q := ⟨j 0, j 1, eq_ix2 j⟩
  refine (payload_apply (iblk1 V c 0 t) (iblk1 V c 1 t) (iblk1 V c 2 t) (iblk1 V c 3 t) (iblk1 V c 4 t) p q).trans ?_
  have r0 : ∀ k : Fin 128, iblk1 V c 0 t (ix2 p k)
      = V c main_v43 (ix2 (node64 (((cfg1.win 5).blk t).view.emb (ix2 p q))) k) := fun k => by
    show V c main_v43 (((cfg1.win 0).blk t).view.emb (ix2 p k)) = _
    refine congrArg (V c main_v43) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have r1 : ∀ k : Fin 128, iblk1 V c 1 t (ix2 p k)
      = V c main_v30 (ix2 (node64 (((cfg1.win 5).blk t).view.emb (ix2 p q))) k) := fun k => by
    show V c main_v30 (((cfg1.win 1).blk t).view.emb (ix2 p k)) = _
    refine congrArg (V c main_v30) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  have r2 : iblk1 V c 2 t (ix2 p (0 : Fin 1))
      = V c main_v27 (ix2 (node64 (((cfg1.win 5).blk t).view.emb (ix2 p q))) (0 : Fin 1)) := by
    show V c main_v27 (((cfg1.win 2).blk t).view.emb (ix2 p (0 : Fin 1))) = _
    refine congrArg (V c main_v27) (funext fun a => Fin.ext ?_)
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  have r3 : ∀ k : Fin 128, iblk1 V c 3 t (ix2 (0 : Fin 1) k) = V c main_v28 (ix2 (0 : Fin 1) k) := fun k => by
    show V c main_v28 (((cfg1.win 3).blk t).view.emb (ix2 (0 : Fin 1) k)) = _
    refine congrArg (V c main_v28) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  have r4 : ∀ k : Fin 128, iblk1 V c 4 t (ix2 k q)
      = V c main_arg4 (ix2 k (feat64 (((cfg1.win 5).blk t).view.emb (ix2 p q)))) := fun k => by
    show V c main_arg4 (((cfg1.win 4).blk t).view.emb (ix2 k q)) = _
    refine congrArg (V c main_arg4) (funext fun a => Fin.ext ?_)
    match a with
    | ⟨0, _⟩ => show win1_4.index t (0 : Fin 2) * 128 + 1 * k.val = k.val; omega
    | ⟨1, _⟩ => show win1_4.index t (1 : Fin 2) * 64 + 1 * q.val = win1_5.index t (1 : Fin 2) * 64 + 1 * q.val; omega
  show _ = layer1 (V c main_v43) (V c main_v30) (V c main_v27) (V c main_v28) (V c main_arg4) (((cfg1.win 5).blk t).view.emb (ix2 p q))
  unfold layer1 act128
  refine Finset.sum_congr rfl fun k _ => ?_
  rw [r0 k, r1 k, r2, r3 k, r4 k]

/-- An index of the product array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v44).slice (win1_5.rect t)).set ↔ _
  rw [View.set_slice_whole, Rect.mem_set_unit]
  exact Iff.rfl

/-- The 20 blocks of 5000 rows cover the 100000 rows: row `r` is in the block of point `r / 5000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE PRODUCT ARRAY after the region: the fused layer of the operand arrays as the region finds them. -/
theorem final (c : Dev nD) :
    (dat1 V c).arrAt 5 cfg1.N = layer1 (V c main_v43) (V c main_v30) (V c main_v27) (V c main_v28) (V c main_arg4) :=
  (dat1 V c).arrAt_eq_of_cover 5 _ (fun t _ => flushed_eq V c t) cover

end Cert.KernelIdeal.Fused

end
-- ==== Proof.Region2.lean ====
/-
  The third kernel region (the second layer's activation), read as a value.

  Its grid has 20 points; point `t` works on rows 5000·t … 5000·t + 4999 of every row-blocked operand (the neighbours'
  sum, the dense part, the column of self-loop weights) and on the whole bias row, and writes rows 5000·t … of the result.
  One row of a block depends only on the same row of the operands, so what a point writes back is its block of ONE
  whole-array function, `Cert.Gcn.act64` of the operand arrays as the region finds them; the 20 blocks tile the
  100000 rows, so the result array ends holding that function.
-/
import proofs.«116353_j25185688224516_1_alg».proof.Proof.Gen.KernelIdeal.Frame
import proofs.«116353_j25185688224516_1_alg».proof.Proof.Spec
import Idealize.ShloMosaic.Lib.Pipeline.Value
import Idealize.ShloMosaic.Lib.ValueIdx

set_option maxRecDepth 16384

noncomputable section

namespace Cert.KernelIdeal.Act2

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

/-- The all-zero offset of a whole-buffer access. -/
theorem zero2 : (![0, 0] : Fin 2 → Nat) = fun _ => 0 := funext fun a => by fin_cases a <;> rfl

/-- The body's arithmetic at one element of its block: row `p`, feature `q` of the output block is the activation of
    row `p`, feature `q` of the two row-blocked operands, the self-loop weight of row `p` and the bias of feature `q`. -/
theorem payload_apply (a h : Vec Ideal S5000x64 .f32) (d : Vec Ideal S5000x1 .f32) (b : Vec Ideal S1x64 .f32)
    (p : Fin 5000) (q : Fin 64) :
    k2_pay1 (F := Ideal) a h d b (ix2 p q)
      = max ((a (ix2 p q) + h (ix2 p q) * d (ix2 p (0 : Fin 1))) + b (ix2 (0 : Fin 1) q)) zeroWord := by
  unfold k2_pay1
  simp only [shapeCast_self]
  have hd : broadcastTo S5000x64 d broadcasts_S5000x1_S5000x64 (ix2 p q) = d (ix2 p (0 : Fin 1)) :=
    broadcastTo_apply d _ (ix2 p q) (ix2 p (0 : Fin 1)) (fun a => match a with
      | ⟨0, _⟩ => by show p.val = if (5000 : Nat) = 1 then 0 else p.val; rw [if_neg (by decide)]
      | ⟨1, _⟩ => by show 0 = if (1 : Nat) = 1 then 0 else q.val; rw [if_pos rfl])
  have hb : broadcastTo S5000x64 b broadcasts_S1x64_S5000x64 (ix2 p q) = b (ix2 (0 : Fin 1) q) :=
    broadcastTo_apply b _ (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])
  show max ((a (ix2 p q) + h (ix2 p q) * broadcastTo S5000x64 d broadcasts_S5000x1_S5000x64 (ix2 p q))
      + broadcastTo S5000x64 b broadcasts_S1x64_S5000x64 (ix2 p q)) _ = _
  rw [hd, hb]
  rfl

variable (V : (c : Dev nD) → (b : Ref sig .tc) → Buf (Elt Ideal) ((c : Thread nD τ).loc b))

/-- The printed block index maps, decided once over the 20 grid points: every row-blocked operand moves with the
    output (block `t` on the row axis, block 0 on the feature axis), the bias row stays at block (0, 0). -/
theorem idx_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 19 :=
  (by decide +kernel : ∀ t : Fin grid2.N, _)

/-- Every block of rows is some point's. -/
theorem idx_onto : ∀ r : Fin 20, ∃ t : Fin cfg2.N, win2_4.index t = ![r.val, 0] :=
  (by decide +kernel : ∀ r : Fin 20, ∃ t : Fin grid2.N, win2_4.index t = ![r.val, 0])

/-- WHAT POINT `t` WRITES BACK is block `t` of the activation of the operand arrays as the region finds them. -/
theorem flushed_eq (c : Dev nD) (t : Fin cfg2.N) :
    (dat2 V c).flushed 4 t = ((cfg2.win 4).blk t).view.read (Elt Ideal)
      (act64 (V c main_v57) (V c main_v44) (V c main_v27) (V c main_v29)) := by
  show (cfg2.win 4).cut (grid2.coords t) ((dat2 V c).after 4 t) = _
  rw [after2_4]
  unfold out2_4
  rw [View.canon_unit_zero zero2]
  simp only [View.ld_unit_zero (S := S5000x64) zero2, View.ld_unit_zero (S := S5000x1) zero2, View.ld_unit_zero (S := S1x64) zero2]
  obtain ⟨e0, e0', e1, e1', e2, e2', e3, e3', e4', -⟩ := idx_facts t
  funext j
  obtain ⟨p, q, rfl⟩ : ∃ (p : Fin 5000) (q : Fin 64), j = ix2 p q := ⟨j 0, j 1, eq_ix2 j⟩
  refine (payload_apply (iblk2 V c 0 t) (iblk2 V c 1 t) (iblk2 V c 2 t) (iblk2 V c 3 t) p q).trans ?_
  have r0 : iblk2 V c 0 t (ix2 p q) = V c main_v57 (((cfg2.win 4).blk t).view.emb (ix2 p q)) := by
    show V c main_v57 (((cfg2.win 0).blk t).view.emb (ix2 p q)) = _
    refine congrArg (V c main_v57) (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 64 + 1 * q.val = win2_4.index t (1 : Fin 2) * 64 + 1 * q.val; omega
  have r1 : iblk2 V c 1 t (ix2 p q) = V c main_v44 (((cfg2.win 4).blk t).view.emb (ix2 p q)) := by
    show V c main_v44 (((cfg2.win 1).blk t).view.emb (ix2 p q)) = _
    refine congrArg (V c main_v44) (funext fun a => Fin.ext ?_)
    match a with
    | ⟨0, _⟩ => show win2_1.index t (0 : Fin 2) * 5000 + 1 * p.val = win2_4.index t (0 : Fin 2) * 5000 + 1 * p.val; omega
    | ⟨1, _⟩ => show win2_1.index t (1 : Fin 2) * 64 + 1 * q.val = win2_4.index t (1 : Fin 2) * 64 + 1 * q.val; omega
  have r2 : iblk2 V c 2 t (ix2 p (0 : Fin 1))
      = V c main_v27 (ix2 (node64 (((cfg2.win 4).blk t).view.emb (ix2 p q))) (0 : Fin 1)) := by
    show V c main_v27 (((cfg2.win 2).blk t).view.emb (ix2 p (0 : Fin 1))) = _
    refine congrArg (V c main_v27) (funext fun a => Fin.ext ?_)
    match a with
    | ⟨0, _⟩ => show win2_2.index t (0 : Fin 2) * 5000 + 1 * p.val = win2_4.index t (0 : Fin 2) * 5000 + 1 * p.val; omega
    | ⟨1, _⟩ => show win2_2.index t (1 : Fin 2) * 1 + 1 * 0 = 0; omega
  have r3 : iblk2 V c 3 t (ix2 (0 : Fin 1) q)
      = V c main_v29 (ix2 (0 : Fin 1) (feat64 (((cfg2.win 4).blk t).view.emb (ix2 p q)))) := by
    show V c main_v29 (((cfg2.win 3).blk t).view.emb (ix2 (0 : Fin 1) q)) = _
    refine congrArg (V c main_v29) (funext fun a => Fin.ext ?_)
    match a with
    | ⟨0, _⟩ => show win2_3.index t (0 : Fin 2) * 1 + 1 * 0 = 0; omega
    | ⟨1, _⟩ => show win2_3.index t (1 : Fin 2) * 64 + 1 * q.val = win2_4.index t (1 : Fin 2) * 64 + 1 * q.val; omega
  rw [r0, r1, r2, r3]
  rfl

/-- An index of the result array is in point `t`'s block iff each coordinate is in the block's range on its axis. -/
theorem mem_blk (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v58).slice (win2_4.rect t)).set ↔ _
  rw [View.set_slice_whole, Rect.mem_set_unit]
  exact Iff.rfl

/-- The 20 blocks of 5000 rows cover the 100000 rows: row `r` is in the block of point `r / 5000`. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- THE RESULT ARRAY after the region: the activation of the operand arrays as the region finds them. -/
theorem final (c : Dev nD) :
    (dat2 V c).arrAt 4 cfg2.N = act64 (V c main_v57) (V c main_v44) (V c main_v27) (V c main_v29) :=
  (dat2 V c).arrAt_eq_of_cover 4 _ (fun t _ => flushed_eq V c t) cover

end Cert.KernelIdeal.Act2

end
-- ==== Proof.RefLayers.lean ====
/-
  The reference's stages are the three whole-array functions.

  The reference computes a layer as `x · W` by one whole product, the neighbours' sum by a scatter-add, the self-loop
  weights broadcast along the features and the bias broadcast along the nodes, then a clamp at zero. Read index by
  index: its first product is `dense128`; its second product, taken of the first activation, is `layer1` of the first
  neighbours' sum, the first product, the squared inverse square-root degrees laid out as a column and the first bias laid
  out as a row; its result is `act64` of the second neighbours' sum, the second product and the same column, with the
  second bias as a row. Laying a vector out as a column or as a row only renames its index, and so does broadcasting it;
  no law of arithmetic is used.
-/
import proofs.«116353_j25185688224516_1_alg».proof.Proof.Gen.ReferenceIdeal.Read
import proofs.«116353_j25185688224516_1_alg».proof.Proof.Spec
import Idealize.ShloMosaic.Lib.ValueLayout

set_option maxRecDepth 16384

noncomputable section

namespace Cert.ReferenceIdeal.Layers

open Idealize.ShloMosaic Idealize.ShloMosaic.TcCoe Idealize.SL.Sem Idealize.ShloMosaic.ValueIdx
open Cert.ReferenceIdeal Cert.ReferenceIdeal.Gen Cert.ReferenceIdeal.Read Cert.Gcn

/-- A vector laid out as one column: entry (n, 0) is entry n. -/
theorem column_apply {α : Type} (v : S100000.Idx → α) (h : S100000.ShapeCasts S100000x1) (n : Fin 100000) :
    shapeCast S100000x1 v h (ix2 n (0 : Fin 1)) = v (ix1 n) :=
  shapeCast_apply v h _ _ (by
    rw [Shape.rowMajor_val_two, Shape.rowMajor_val_one]
    show n.val = n.val * 1 + 0
    omega)

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! The reference's index maps, by coordinates. -/

theorem lidx11 (i : S100000x128.Idx) (k : Fin 128) : lidx_main_v11 i k = ix2 (node128 i) k :=
  funext fun a => by match a with | ⟨0, _⟩ => rfl | ⟨1, _⟩ => rfl
theorem ridx11 (i : S100000x128.Idx) (k : Fin 128) : ridx_main_v11 i k = ix2 k (feat128 i) :=
  funext fun a => by match a with | ⟨0, _⟩ => rfl | ⟨1, _⟩ => rfl
theorem lidx49 (i : S100000x64.Idx) (k : Fin 128) : lidx_main_v49 i k = ix2 (node64 i) k :=
  funext fun a => by match a with | ⟨0, _⟩ => rfl | ⟨1, _⟩ => rfl
theorem ridx49 (i : S100000x64.Idx) (k : Fin 128) : ridx_main_v49 i k = ix2 k (feat64 i) :=
  funext fun a => by match a with | ⟨0, _⟩ => rfl | ⟨1, _⟩ => rfl

/-- The reference's first product is the dense product. -/
theorem dense_eq : dense128 x0 x2 = val_main_v11 (F := Ideal) x0 x2 := by
  funext i
  rw [val_main_v11_apply]
  unfold dense128
  exact Finset.sum_congr rfl fun k _ => by rw [lidx11 i k, ridx11 i k]

/-- The self-loop weight the reference multiplies row `n` by is the column's entry (n, 0). -/
theorem selfloop128 (h : S100000.ShapeCasts S100000x1) (i : S100000x128.Idx) :
    val_main_v42 (F := Ideal) x1 i = shapeCast S100000x1 (val_main_v40 (F := Ideal) x1) h (ix2 (node128 i) (0 : Fin 1)) := by
  rw [val_main_v42_apply, val_main_v41_apply]
  refine (congrArg (val_main_v40 (F := Ideal) x1) ?_).trans (column_apply (val_main_v40 (F := Ideal) x1) h (node128 i)).symm
  funext a
  match a with
  | ⟨0, _⟩ => rfl

/-- The bias the reference adds to feature `f` is the row's entry (0, f). -/
theorem bias128 (h : S128.ShapeCasts S1x128) (i : S100000x128.Idx) :
    val_main_v46 (F := Ideal) x3 i = shapeCast S1x128 x3 h (ix2 (0 : Fin 1) (feat128 i)) := by
  rw [val_main_v46_apply, val_main_v45_apply]
  refine (congrArg x3 ?_).trans (shapeCast_a_1a_apply x3 h (0 : Fin 1) (feat128 i)).symm
  funext a
  match a with
  | ⟨0, _⟩ => rfl

/-- The reference's first activation is `act128` of its first neighbours' sum, its first product, the column and the row. -/
theorem act1_eq (h : S100000.ShapeCasts S100000x1) (h' : S128.ShapeCasts S1x128) :
    act128 (val_main_v39 (F := Ideal) x0 x1 x2) (val_main_v11 (F := Ideal) x0 x2)
        (shapeCast S100000x1 (val_main_v40 (F := Ideal) x1) h) (shapeCast S1x128 x3 h')
      = val_main_v48 (F := Ideal) x0 x1 x2 x3 := by
  funext i
  rw [val_main_v48_apply, val_main_v47_apply, val_main_v44_apply, val_main_v43_apply, selfloop128 x1 h i, bias128 x3 h' i,
    val_main_call0_v0_apply]
  rfl

/-- The reference's second product is the fused layer. -/
theorem layer1_eq (h : S100000.ShapeCasts S100000x1) (h' : S128.ShapeCasts S1x128) :
    layer1 (val_main_v39 (F := Ideal) x0 x1 x2) (val_main_v11 (F := Ideal) x0 x2)
        (shapeCast S100000x1 (val_main_v40 (F := Ideal) x1) h) (shapeCast S1x128 x3 h') x4
      = val_main_v49 (F := Ideal) x0 x1 x2 x3 x4 := by
  funext i
  rw [val_main_v49_apply]
  unfold layer1
  exact Finset.sum_congr rfl fun k _ => by rw [lidx49 i k, ridx49 i k, act1_eq x0 x1 x2 x3 h h']

/-- The self-loop weight of row `n` again, along 64 features. -/
theorem selfloop64 (h : S100000.ShapeCasts S100000x1) (i : S100000x64.Idx) :
    val_main_v80 (F := Ideal) x1 i = shapeCast S100000x1 (val_main_v40 (F := Ideal) x1) h (ix2 (node64 i) (0 : Fin 1)) := by
  rw [val_main_v80_apply, val_main_v79_apply]
  refine (congrArg (val_main_v78 (F := Ideal) x1) ?_).trans (column_apply (val_main_v40 (F := Ideal) x1) h (node64 i)).symm
  funext a
  match a with
  | ⟨0, _⟩ => rfl

/-- The second bias of feature `f` is the row's entry (0, f). -/
theorem bias64 (h : S64.ShapeCasts S1x64) (i : S100000x64.Idx) :
    val_main_v84 (F := Ideal) x5 i = shapeCast S1x64 x5 h (ix2 (0 : Fin 1) (feat64 i)) := by
  rw [val_main_v84_apply, val_main_v83_apply]
  refine (congrArg x5 ?_).trans (shapeCast_a_1a_apply x5 h (0 : Fin 1) (feat64 i)).symm
  funext a
  match a with
  | ⟨0, _⟩ => rfl

/-- The reference's result is the second activation. -/
theorem act2_eq (h : S100000.ShapeCasts S100000x1) (h' : S64.ShapeCasts S1x64) :
    act64 (val_main_v77 (F := Ideal) x0 x1 x2 x3 x4) (val_main_v49 (F := Ideal) x0 x1 x2 x3 x4)
        (shapeCast S100000x1 (val_main_v40 (F := Ideal) x1) h) (shapeCast S1x64 x5 h')
      = val_main_v86 (F := Ideal) x0 x1 x2 x3 x4 x5 := by
  funext i
  rw [val_main_v86_apply, val_main_v85_apply, val_main_v82_apply, val_main_v81_apply, selfloop64 x1 h i, bias64 x5 h' i,
    val_main_call1_v0_apply]
  rfl

end Cert.ReferenceIdeal.Layers

end
-- ==== Proof.Walk.lean ====
/-
  The result of the kernel program, read back through its run.

  The program alternates stretches of host operations with the three kernel regions. The contents of the buffers at each
  boundary are a fold through the program: a host stretch rewrites the buffers its operations write, a region rewrites
  its output array with what its points write back, and everything else is carried along. Walking that fold from the
  launch, each buffer a later step reads is named by the REFERENCE's own stage of the same quantity (the gather indices,
  the per-edge coefficient, the degrees, the neighbours' sums, the products): the host operations of the two programs
  are the same operations on the same operands, and each region's output is the reference's stage by the value of the
  region and the reading of the reference's layer. The last boundary's contents at the result buffer are the reference's
  result.
-/
import proofs.«116353_j25185688224516_1_alg».proof.Proof.Gen.KernelIdeal.Frame
import proofs.«116353_j25185688224516_1_alg».proof.Proof.Region0
import proofs.«116353_j25185688224516_1_alg».proof.Proof.Region1
import proofs.«116353_j25185688224516_1_alg».proof.Proof.Region2
import proofs.«116353_j25185688224516_1_alg».proof.Proof.RefLayers
import Idealize.ShloMosaic.Lib.StableHlo.Run

set_option maxRecDepth 16384
set_option maxHeartbeats 2000000

noncomputable section

namespace Cert.KernelIdeal.Walk

open Idealize.ShloMosaic Idealize.ShloMosaic.TcCoe Idealize.SL.Sem Idealize.ShloMosaic.StableHlo
open Cert.KernelIdeal Cert.KernelIdeal.Gen Cert.Gcn
open Cert.ReferenceIdeal.Read (val_main_v1 val_main_v3 val_main_v11 val_main_v26 val_main_v39 val_main_v40 val_main_v49
  val_main_v77 val_main_v86)

variable (m : (ℓ : Loc nD τ sig) → Buf (Elt Ideal) ℓ) (ρ : Dev nD → PrngReg) (c : Dev nD)

/-! ## After the first host stretch: the graph's quantities, from the edge list alone -/

theorem W1_src : W1 m ρ c (Proc.devRef .tc main_v1) = val_main_v1 (F := Ideal) (m ((c.tc : Thread nD τ).loc main_arg1)) := by
  show StableHlo.after hostOps0 (W0 m ρ c) _ = _
  generalize hZ : W0 m ρ c = Z
  after_results_simp
  rw [← hZ]
  rfl
theorem W1_dst : W1 m ρ c (Proc.devRef .tc main_v3) = val_main_v3 (F := Ideal) (m ((c.tc : Thread nD τ).loc main_arg1)) := by
  show StableHlo.after hostOps0 (W0 m ρ c) _ = _
  generalize hZ : W0 m ρ c = Z
  after_results_simp
  rw [← hZ]
  rfl
theorem W1_coef : W1 m ρ c (Proc.devRef .tc main_v25) = val_main_v26 (F := Ideal) (m ((c.tc : Thread nD τ).loc main_arg1)) := by
  show StableHlo.after hostOps0 (W0 m ρ c) _ = _
  generalize hZ : W0 m ρ c = Z
  after_results_simp
  rw [← hZ]
  rfl
theorem W1_col : W1 m ρ c (Proc.devRef .tc main_v27) = shapeCast S100000x1 (val_main_v40 (F := Ideal) (m ((c.tc : Thread nD τ).loc main_arg1))) shapeCasts_S100000_S100000x1 := by
  show StableHlo.after hostOps0 (W0 m ρ c) _ = _
  generalize hZ : W0 m ρ c = Z
  after_results_simp
  rw [← hZ]
  rfl
theorem W1_b1 : W1 m ρ c (Proc.devRef .tc main_v28) = shapeCast S1x128 (m ((c.tc : Thread nD τ).loc main_arg3)) shapeCasts_S128_S1x128 := by
  show StableHlo.after hostOps0 (W0 m ρ c) _ = _
  generalize hZ : W0 m ρ c = Z
  after_results_simp
  rw [← hZ]
  rfl
theorem W1_b2 : W1 m ρ c (Proc.devRef .tc main_v29) = shapeCast S1x64 (m ((c.tc : Thread nD τ).loc main_arg5)) shapeCasts_S64_S1x64 := by
  show StableHlo.after hostOps0 (W0 m ρ c) _ = _
  generalize hZ : W0 m ρ c = Z
  after_results_simp
  rw [← hZ]
  rfl
theorem W1_x : W1 m ρ c (Proc.devRef .tc main_arg0) = (m ((c.tc : Thread nD τ).loc main_arg0)) := by
  show StableHlo.after hostOps0 (W0 m ρ c) _ = _
  generalize hZ : W0 m ρ c = Z
  after_results_simp
  rw [← hZ]
theorem W1_w1 : W1 m ρ c (Proc.devRef .tc main_arg2) = (m ((c.tc : Thread nD τ).loc main_arg2)) := by
  show StableHlo.after hostOps0 (W0 m ρ c) _ = _
  generalize hZ : W0 m ρ c = Z
  after_results_simp
  rw [← hZ]
theorem W1_w2 : W1 m ρ c (Proc.devRef .tc main_arg4) = (m ((c.tc : Thread nD τ).loc main_arg4)) := by
  show StableHlo.after hostOps0 (W0 m ρ c) _ = _
  generalize hZ : W0 m ρ c = Z
  after_results_simp
  rw [← hZ]

/-! ## After the first region: the first dense product; everything else carried -/

theorem W2_h1 : W2 m ρ c (Proc.devRef .tc main_v30) = val_main_v11 (F := Ideal) (m ((c.tc : Thread nD τ).loc main_arg0)) (m ((c.tc : Thread nD τ).loc main_arg2)) := by
  refine (W2_arr m ρ c 2).trans ?_
  rw [Dense1.final (V1 m ρ) c]
  show dense128 (W1 m ρ c (Proc.devRef .tc main_arg0)) (W1 m ρ c (Proc.devRef .tc main_arg2)) = _
  rw [W1_x m ρ c, W1_w1 m ρ c]
  exact Cert.ReferenceIdeal.Layers.dense_eq _ _
theorem W2_src : W2 m ρ c (Proc.devRef .tc main_v1) = val_main_v1 (F := Ideal) (m ((c.tc : Thread nD τ).loc main_arg1)) :=
  (W2_of_ne m ρ c main_v1 (by decide)).trans (W1_src m ρ c)
theorem W2_dst : W2 m ρ c (Proc.devRef .tc main_v3) = val_main_v3 (F := Ideal) (m ((c.tc : Thread nD τ).loc main_arg1)) :=
  (W2_of_ne m ρ c main_v3 (by decide)).trans (W1_dst m ρ c)
theorem W2_coef : W2 m ρ c (Proc.devRef .tc main_v25) = val_main_v26 (F := Ideal) (m ((c.tc : Thread nD τ).loc main_arg1)) :=
  (W2_of_ne m ρ c main_v25 (by decide)).trans (W1_coef m ρ c)
theorem W2_col : W2 m ρ c (Proc.devRef .tc main_v27) = shapeCast S100000x1 (val_main_v40 (F := Ideal) (m ((c.tc : Thread nD τ).loc main_arg1))) shapeCasts_S100000_S100000x1 :=
  (W2_of_ne m ρ c main_v27 (by decide)).trans (W1_col m ρ c)
theorem W2_b1 : W2 m ρ c (Proc.devRef .tc main_v28) = shapeCast S1x128 (m ((c.tc : Thread nD τ).loc main_arg3)) shapeCasts_S128_S1x128 :=
  (W2_of_ne m ρ c main_v28 (by decide)).trans (W1_b1 m ρ c)
theorem W2_b2 : W2 m ρ c (Proc.devRef .tc main_v29) = shapeCast S1x64 (m ((c.tc : Thread nD τ).loc main_arg5)) shapeCasts_S64_S1x64 :=
  (W2_of_ne m ρ c main_v29 (by decide)).trans (W1_b2 m ρ c)
theorem W2_w2 : W2 m ρ c (Proc.devRef .tc main_arg4) = (m ((c.tc : Thread nD τ).loc main_arg4)) :=
  (W2_of_ne m ρ c main_arg4 (by decide)).trans (W1_w2 m ρ c)

/-! ## After the second host stretch: the first neighbours' sum -/

theorem W3_agg1 : W3 m ρ c (Proc.devRef .tc main_v43) = val_main_v39 (F := Ideal) (m ((c.tc : Thread nD τ).loc main_arg0)) (m ((c.tc : Thread nD τ).loc main_arg1)) (m ((c.tc : Thread nD τ).loc main_arg2)) := by
  show StableHlo.after hostOps1 (W2 m ρ c) _ = _
  generalize hZ : W2 m ρ c = Z
  after_results_simp
  rw [← hZ, W2_dst m ρ c, W2_h1 m ρ c, W2_src m ρ c, W2_coef m ρ c]
  rfl
theorem W3_h1 : W3 m ρ c (Proc.devRef .tc main_v30) = val_main_v11 (F := Ideal) (m ((c.tc : Thread nD τ).loc main_arg0)) (m ((c.tc : Thread nD τ).loc main_arg2)) := by
  show StableHlo.after hostOps1 (W2 m ρ c) _ = _
  generalize hZ : W2 m ρ c = Z
  after_results_simp
  rw [← hZ, W2_h1 m ρ c]
theorem W3_src : W3 m ρ c (Proc.devRef .tc main_v1) = val_main_v1 (F := Ideal) (m ((c.tc : Thread nD τ).loc main_arg1)) := by
  show StableHlo.after hostOps1 (W2 m ρ c) _ = _
  generalize hZ : W2 m ρ c = Z
  after_results_simp
  rw [← hZ, W2_src m ρ c]
theorem W3_dst : W3 m ρ c (Proc.devRef .tc main_v3) = val_main_v3 (F := Ideal) (m ((c.tc : Thread nD τ).loc main_arg1)) := by
  show StableHlo.after hostOps1 (W2 m ρ c) _ = _
  generalize hZ : W2 m ρ c = Z
  after_results_simp
  rw [← hZ, W2_dst m ρ c]
theorem W3_coef : W3 m ρ c (Proc.devRef .tc main_v25) = val_main_v26 (F := Ideal) (m ((c.tc : Thread nD τ).loc main_arg1)) := by
  show StableHlo.after hostOps1 (W2 m ρ c) _ = _
  generalize hZ : W2 m ρ c = Z
  after_results_simp
  rw [← hZ, W2_coef m ρ c]
theorem W3_col : W3 m ρ c (Proc.devRef .tc main_v27) = shapeCast S100000x1 (val_main_v40 (F := Ideal) (m ((c.tc : Thread nD τ).loc main_arg1))) shapeCasts_S100000_S100000x1 := by
  show StableHlo.after hostOps1 (W2 m ρ c) _ = _
  generalize hZ : W2 m ρ c = Z
  after_results_simp
  rw [← hZ, W2_col m ρ c]
theorem W3_b1 : W3 m ρ c (Proc.devRef .tc main_v28) = shapeCast S1x128 (m ((c.tc : Thread nD τ).loc main_arg3)) shapeCasts_S128_S1x128 := by
  show StableHlo.after hostOps1 (W2 m ρ c) _ = _
  generalize hZ : W2 m ρ c = Z
  after_results_simp
  rw [← hZ, W2_b1 m ρ c]
theorem W3_b2 : W3 m ρ c (Proc.devRef .tc main_v29) = shapeCast S1x64 (m ((c.tc : Thread nD τ).loc main_arg5)) shapeCasts_S64_S1x64 := by
  show StableHlo.after hostOps1 (W2 m ρ c) _ = _
  generalize hZ : W2 m ρ c = Z
  after_results_simp
  rw [← hZ, W2_b2 m ρ c]
theorem W3_w2 : W3 m ρ c (Proc.devRef .tc main_arg4) = (m ((c.tc : Thread nD τ).loc main_arg4)) := by
  show StableHlo.after hostOps1 (W2 m ρ c) _ = _
  generalize hZ : W2 m ρ c = Z
  after_results_simp
  rw [← hZ, W2_w2 m ρ c]

/-! ## After the second region: the second dense product -/

theorem W4_h2 : W4 m ρ c (Proc.devRef .tc main_v44) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 5).trans ?_
  rw [Fused.final (V3 m ρ) c]
  show layer1 (W3 m ρ c (Proc.devRef .tc main_v43)) (W3 m ρ c (Proc.devRef .tc main_v30)) (W3 m ρ c (Proc.devRef .tc main_v27))
    (W3 m ρ c (Proc.devRef .tc main_v28)) (W3 m ρ c (Proc.devRef .tc main_arg4)) = _
  rw [W3_agg1 m ρ c, W3_h1 m ρ c, W3_col m ρ c, W3_b1 m ρ c, W3_w2 m ρ c]
  exact Cert.ReferenceIdeal.Layers.layer1_eq _ _ _ _ _ _ _
theorem W4_col : W4 m ρ c (Proc.devRef .tc main_v27) = shapeCast S100000x1 (val_main_v40 (F := Ideal) (m ((c.tc : Thread nD τ).loc main_arg1))) shapeCasts_S100000_S100000x1 :=
  ((W4_arr m ρ c 2).trans (((dat1 (V3 m ρ) c).arrAt_in 2 rfl _).trans (A_eq1 (V3 m ρ) c 2))).trans (W3_col m ρ c)
theorem W4_src : W4 m ρ c (Proc.devRef .tc main_v1) = val_main_v1 (F := Ideal) (m ((c.tc : Thread nD τ).loc main_arg1)) :=
  (W4_of_ne m ρ c main_v1 (by decide)).trans (W3_src m ρ c)
theorem W4_dst : W4 m ρ c (Proc.devRef .tc main_v3) = val_main_v3 (F := Ideal) (m ((c.tc : Thread nD τ).loc main_arg1)) :=
  (W4_of_ne m ρ c main_v3 (by decide)).trans (W3_dst m ρ c)
theorem W4_coef : W4 m ρ c (Proc.devRef .tc main_v25) = val_main_v26 (F := Ideal) (m ((c.tc : Thread nD τ).loc main_arg1)) :=
  (W4_of_ne m ρ c main_v25 (by decide)).trans (W3_coef m ρ c)
theorem W4_b2 : W4 m ρ c (Proc.devRef .tc main_v29) = shapeCast S1x64 (m ((c.tc : Thread nD τ).loc main_arg5)) shapeCasts_S64_S1x64 :=
  (W4_of_ne m ρ c main_v29 (by decide)).trans (W3_b2 m ρ c)

/-! ## After the third host stretch: the second neighbours' sum -/

theorem W5_agg2 : W5 m ρ c (Proc.devRef .tc main_v57) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (W4 m ρ c) _ = _
  generalize hZ : W4 m ρ c = Z
  after_results_simp
  rw [← hZ, W4_dst m ρ c, W4_h2 m ρ c, W4_src m ρ c, W4_coef m ρ c]
  rfl
theorem W5_h2 : W5 m ρ c (Proc.devRef .tc main_v44) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (W4 m ρ c) _ = _
  generalize hZ : W4 m ρ c = Z
  after_results_simp
  rw [← hZ, W4_h2 m ρ c]
theorem W5_col : W5 m ρ c (Proc.devRef .tc main_v27) = shapeCast S100000x1 (val_main_v40 (F := Ideal) (m ((c.tc : Thread nD τ).loc main_arg1))) shapeCasts_S100000_S100000x1 := by
  show StableHlo.after hostOps2 (W4 m ρ c) _ = _
  generalize hZ : W4 m ρ c = Z
  after_results_simp
  rw [← hZ, W4_col m ρ c]
theorem W5_b2 : W5 m ρ c (Proc.devRef .tc main_v29) = shapeCast S1x64 (m ((c.tc : Thread nD τ).loc main_arg5)) shapeCasts_S64_S1x64 := by
  show StableHlo.after hostOps2 (W4 m ρ c) _ = _
  generalize hZ : W4 m ρ c = Z
  after_results_simp
  rw [← hZ, W4_b2 m ρ c]

/-! ## After the third region: the result -/

/-- The result buffer at the last boundary holds the reference's result of the same arguments. -/
theorem W6_out : W6 m ρ c (Proc.devRef .tc main_v58) = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 4).trans ?_
  rw [Act2.final (V5 m ρ) c]
  show act64 (W5 m ρ c (Proc.devRef .tc main_v57)) (W5 m ρ c (Proc.devRef .tc main_v44)) (W5 m ρ c (Proc.devRef .tc main_v27))
    (W5 m ρ c (Proc.devRef .tc main_v29)) = _
  rw [W5_agg2 m ρ c, W5_h2 m ρ c, W5_col m ρ c, W5_b2 m ρ c]
  exact Cert.ReferenceIdeal.Layers.act2_eq _ _ _ _ _ _ _ _

end Cert.KernelIdeal.Walk

end
-- ==== Proof.lean ====
/-
  A two-layer graph convolution with symmetric normalisation and self loops, computed by a program of three kernel
  regions among host operations, against its plain reference: equal results over the extended reals.

  Both programs compute, from the edge list alone, the inverse square-root degrees, the per-edge coefficient (the product
  of the two endpoints' values) and the self-loop weight (the square); and per layer the dense product `h = x · W`, the
  neighbours' sum (rows of `h` gathered at the sources, scaled by the coefficient, scatter-added at the targets) and the
  activation `max ((agg + h · selfloop) + bias) 0`. They differ only in who computes the dense products and the
  activations: the reference by whole-array host operations, the kernel program block by block over 5000 rows at a time
  (the first product by itself; the first activation fused with the second product; the second activation). A block of
  rows of a product or of an activation depends only on the same rows of the operands, so each region's output array is
  the whole-array function of its operand arrays (Region0, Region1, Region2 over Spec), which the reference's stages
  are too (RefLayers); the host operations between the regions are the reference's own, on the same operands (Walk).
  No law of arithmetic beyond the reading of a matrix product as a sum is used, so nothing is asked of the inputs: the
  precondition is never opened.

  The three frames: the two kernel programs' are the generated certificates; the reference's is its generated run with the
  result dropped. The idealization rewrote nothing, so it is preserved trivially.
-/
import proofs.«116353_j25185688224516_1_alg».proof.Defs
import proofs.«116353_j25185688224516_1_alg».proof.Proof.Gen.Kernel
import proofs.«116353_j25185688224516_1_alg».proof.Proof.Gen.Kernel.Skeleton
import proofs.«116353_j25185688224516_1_alg».proof.Proof.Gen.Kernel.Launch
import proofs.«116353_j25185688224516_1_alg».proof.Proof.Gen.Kernel.Points
import proofs.«116353_j25185688224516_1_alg».proof.Proof.Gen.Kernel.Frame
import proofs.«116353_j25185688224516_1_alg».proof.Proof.Gen.KernelIdeal
import proofs.«116353_j25185688224516_1_alg».proof.Proof.Gen.KernelIdeal.Skeleton
import proofs.«116353_j25185688224516_1_alg».proof.Proof.Gen.KernelIdeal.Launch
import proofs.«116353_j25185688224516_1_alg».proof.Proof.Gen.KernelIdeal.Points
import proofs.«116353_j25185688224516_1_alg».proof.Proof.Gen.KernelIdeal.Frame
import proofs.«116353_j25185688224516_1_alg».proof.Proof.Gen.ReferenceIdeal
import proofs.«116353_j25185688224516_1_alg».proof.Proof.Gen.Pre_finite_inputs
import proofs.«116353_j25185688224516_1_alg».proof.Proof.Gen.ReferenceIdeal.Run
import proofs.«116353_j25185688224516_1_alg».proof.Proof.Gen.ReferenceIdeal.Read
import proofs.«116353_j25185688224516_1_alg».proof.Proof.ResultRun
import proofs.«116353_j25185688224516_1_alg».proof.Proof.Walk
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments both programs end, the kernel program's result array and the
    reference's both at the reference's last stage of the kernel program's arguments. -/
theorem algebraic : Cert.algebraic_KernelIdeal_ReferenceIdeal := by
  intro m ρ m' ρ' _ hagree
  refine ⟨fun c => Cert.ReferenceIdeal.Read.val_main_v86 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.W6_out m ρ c), (h c).2⟩)
      (Cert.KernelIdeal.ResultRun.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v86_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
